-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x32 : Shape := ⟨2, ![512, 32]⟩
abbrev S32 : Shape := ⟨1, ![32]⟩
abbrev S32x40 : Shape := ⟨2, ![32, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x40 : S_.BroadcastsInDim S32x40 (![] : Fin 0 → Fin S32x40.rank)
  reducesTo_S32x40_S_d0_1 : S32x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S32x40 1) : IVec S_ 1 :=
  let main_c_5 : IVec S_ 1 := constantI S_ 1 1#1
  let main_v17 : IVec S_ 1 := (fun x v => Host.reduce IntOp.andi x v reducesTo_S32x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x32 .f32) (main_arg3 : FVec F S32 .f32) (main_arg4 : FVec F S32x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x32 .f32 := Host.absf main_arg2
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x40 .f32 := Host.absf main_arg4
  let main_cst_4 : FVec F S_ .f32 := constant S_ .f32 0x7F800000#32
  let main_v15 : FVec F S32x40 .f32 := broadcastInDim S32x40 ![] bcast_S_S32x40 main_cst_4
  let main_v16 : IVec S32x40 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x32 : Shape := ⟨2, ![512, 32]⟩
abbrev S32 : Shape := ⟨1, ![32]⟩
abbrev S32x40 : Shape := ⟨2, ![32, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S4000x512 : Shape := ⟨2, ![4000, 512]⟩
abbrev S4000x32 : Shape := ⟨2, ![4000, 32]⟩
abbrev S1700000x32 : Shape := ⟨2, ![1700000, 32]⟩
abbrev S1x32 : Shape := ⟨2, ![1, 32]⟩
abbrev S100000x40 : Shape := ⟨2, ![100000, 40]⟩
abbrev S4000x40 : Shape := ⟨2, ![4000, 40]⟩
abbrev S1700000x40 : Shape := ⟨2, ![1700000, 40]⟩
abbrev S1x40 : Shape := ⟨2, ![1, 40]⟩

abbrev nBuf : Space → Nat
  | .hbm => 88
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x32, .f32⟩
  | .hbm, ⟨3, _⟩ => ⟨S32, .f32⟩
  | .hbm, ⟨4, _⟩ => ⟨S32x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S100000x32, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x32, .f32⟩
  | .hbm, ⟨57, _⟩ => ⟨S1700000x32, .f32⟩
  | .hbm, ⟨58, _⟩ => ⟨S1700000x32, .f32⟩
  | .hbm, ⟨59, _⟩ => ⟨S_, .f32⟩
  | .hbm, ⟨60, _⟩ => ⟨S100000x32, .f32⟩
  | .hbm, ⟨61, _⟩ => ⟨S1700000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x40, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x40, .f32⟩
  | .hbm, ⟨79, _⟩ => ⟨S1700000x40, .f32⟩
  | .hbm, ⟨80, _⟩ => ⟨S1700000x40, .f32⟩
  | .hbm, ⟨81, _⟩ => ⟨S_, .f32⟩
  | .hbm, ⟨82, _⟩ => ⟨S100000x40, .f32⟩
  | .hbm, ⟨83, _⟩ => ⟨S1700000x1, .i32⟩
  | .hbm, ⟨84, _⟩ => ⟨S100000x40, .f32⟩
  | .hbm, ⟨85, _⟩ => ⟨S1x40, .f32⟩
  | .hbm, ⟨86, _⟩ => ⟨S100000x40, .f32⟩
  | .hbm, ⟨87, _⟩ => ⟨S100000x40, .f32⟩
  | .local _ .vmem, ⟨0, _⟩ => ⟨S4000x512, .f32⟩
  | .local _ .vmem, ⟨1, _⟩ => ⟨S4000x512, .f32⟩
  | .local _ .vmem, ⟨2, _⟩ => ⟨S512x32, .f32⟩
  | .local _ .vmem, ⟨3, _⟩ => ⟨S4000x32, .f32⟩
  | .local _ .vmem, ⟨4, _⟩ => ⟨S4000x32, .f32⟩
  | .local _ .vmem, ⟨5, _⟩ => ⟨S4000x32, .f32⟩
  | .local _ .vmem, ⟨6, _⟩ => ⟨S4000x32, .f32⟩
  | .local _ .vmem, ⟨7, _⟩ => ⟨S32x40, .f32⟩
  | .local _ .vmem, ⟨8, _⟩ => ⟨S4000x40, .f32⟩
  | .local _ .vmem, ⟨9, _⟩ => ⟨S4000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  inb_S4000x32_S4000x32_0_0 : ∀ a, (![0, 0] : Fin 2 → Nat) a + S4000x32.size a ≤ S4000x32.size a
  h_S4000x32 : 0 < S4000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S4000x32_S4000x32 : S4000x32.ShapeCasts S4000x32
  inb_S32x40_S32x40_0_0 : ∀ a, (![0, 0] : Fin 2 → Nat) a + S32x40.size a ≤ S32x40.size a
  h_S32x40 : 0 < S32x40.numel
  inb_S4000x40_S4000x40_0_0 : ∀ a, (![0, 0] : Fin 2 → Nat) a + S4000x40.size a ≤ S4000x40.size a
  h_S4000x40 : 0 < S4000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x512_S512x32_S4000x32_1_0_0_1_n_n_wf : DotDims.WF S4000x512 S512x32 S4000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S4000x32_S32x40_S4000x40_1_0_0_1_n_n_wf : DotDims.WF S4000x32 S32x40 S4000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S100000x32.size a
  hwx0_2 : ∀ i : grid0.Coords, EltTy.bits .f32 = 32 ∨ (Rect.block (s := S100000x32) S4000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x40.size a ≤ S32x40.size a
  hwx1_1 : ∀ i : grid1.Coords, EltTy.bits .f32 = 32 ∨ (Rect.block (s := S32x40) S32x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x40.size a ≤ S100000x40.size a
  hwx1_2 : ∀ i : grid1.Coords, EltTy.bits .f32 = 32 ∨ (Rect.block (s := S100000x40) S4000x40.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x512_S512x32_S4000x32_1_0_0_1_n_n : DotDims S4000x512 S512x32 S4000x32 where
  lhsContracting := [1]
  rhsContracting := [0]
  lhsNonContracting := [0]
  rhsNonContracting := [1]
  lhsBatch := []
  rhsBatch := []
  wf := dot_S4000x512_S512x32_S4000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S4000x32_S32x40_S4000x40_1_0_0_1_n_n : DotDims S4000x32 S32x40 S4000x40 where
  lhsContracting := [1]
  rhsContracting := [0]
  lhsNonContracting := [0]
  rhsNonContracting := [1]
  lhsBatch := []
  rhsBatch := []
  wf := dot_S4000x32_S32x40_S4000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S4000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S4000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x32 : Shape := ⟨2, ![512, 32]⟩
abbrev S32 : Shape := ⟨1, ![32]⟩
abbrev S32x40 : Shape := ⟨2, ![32, 40]⟩
abbrev S40 : Shape := ⟨1, ![40]⟩
abbrev S1x1600000 : Shape := ⟨2, ![1, 1600000]⟩
abbrev S1600000 : Shape := ⟨1, ![1600000]⟩
abbrev S100000x32 : Shape := ⟨2, ![100000, 32]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 125
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x32, .f32⟩
  | .hbm, ⟨3, _⟩ => ⟨S32, .f32⟩
  | .hbm, ⟨4, _⟩ => ⟨S32x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x32, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x32, .f32⟩
  | .hbm, ⟨56, _⟩ => ⟨S1700000x1, .f32⟩
  | .hbm, ⟨57, _⟩ => ⟨S1700000x32, .f32⟩
  | .hbm, ⟨58, _⟩ => ⟨S1700000x32, .f32⟩
  | .hbm, ⟨59, _⟩ => ⟨S_, .f32⟩
  | .hbm, ⟨60, _⟩ => ⟨S100000x32, .f32⟩
  | .hbm, ⟨61, _⟩ => ⟨S1700000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x40, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x40, .f32⟩
  | .hbm, ⟨115, _⟩ => ⟨S1700000x1, .f32⟩
  | .hbm, ⟨116, _⟩ => ⟨S1700000x40, .f32⟩
  | .hbm, ⟨117, _⟩ => ⟨S1700000x40, .f32⟩
  | .hbm, ⟨118, _⟩ => ⟨S_, .f32⟩
  | .hbm, ⟨119, _⟩ => ⟨S100000x40, .f32⟩
  | .hbm, ⟨120, _⟩ => ⟨S1700000x1, .i32⟩
  | .hbm, ⟨121, _⟩ => ⟨S100000x40, .f32⟩
  | .hbm, ⟨122, _⟩ => ⟨S1x40, .f32⟩
  | .hbm, ⟨123, _⟩ => ⟨S100000x40, .f32⟩
  | .hbm, ⟨124, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x512_S512x32_S100000x32_1_0_0_1_n_n_wf : DotDims.WF S100000x512 S512x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x40_S100000x40_1_0_0_1_n_n_wf : DotDims.WF S100000x32 S32x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x512_S512x32_S100000x32_1_0_0_1_n_n : DotDims S100000x512 S512x32 S100000x32 where
  lhsContracting := [1]
  rhsContracting := [0]
  lhsNonContracting := [0]
  rhsNonContracting := [1]
  lhsBatch := []
  rhsBatch := []
  wf := dot_S100000x512_S512x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x40_S100000x40_1_0_0_1_n_n : DotDims S100000x32 S32x40 S100000x40 where
  lhsContracting := [1]
  rhsContracting := [0]
  lhsNonContracting := [0]
  rhsNonContracting := [1]
  lhsBatch := []
  rhsBatch := []
  wf := dot_S100000x32_S32x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.Conv.lean ====
/-
  The graph convolution both programs compute, as named functions of the argument arrays (any float family `F`).

  The edge list `e : i32[2, 1600000]` gives 1,600,000 edges (row 0 the source nodes, row 1 the destination nodes) over
  100,000 nodes; every node gets a self loop, so the lists of `srcs` and `dsts` have 1,700,000 entries. With
  `deg j` the number of list entries whose destination is `j` and `dinv j = deg j ^ (-1/2)` (0 where `deg j ≤ 0`),
  an edge `(s, d)` carries the weight `norm = dinv s · dinv d`. One layer sends a node table `H` to
  `out d = (∑ over entries with destination d of H (src) · norm) + b`: a row gather, a scaling, a scatter-add and a bias.
  The whole network is  `layer2 (relu (layer1 (x · W1)) · W2)`; the two dense products are NOT part of this file (the kernel
  computes them block by block on the matrix unit, the reference by one contraction) — the layers take the product as
  an argument, so that both programs' results are the same functions of equal products.
  Negative indices wrap (`wrap`: `i < 0 ↦ i + 100000`), as jnp's indexing prints.
-/
import proofs.«150166_j1975684956587_1_alg».proof.KernelIdeal

noncomputable section

namespace Cert.KernelIdeal.Conv

open Idealize.ShloMosaic Idealize.ShloMosaic.TcCoe Cert.KernelIdeal

variable {F : FTy → Type} [FloatOps F]
-- the shape relations the operations cite are the program's stated facts (its `Facts` class), taken as the printed program takes them
variable [Facts]
open Facts₀ Facts

/-- An i32 array / an f32 array of a literal shape, as the host operations type their operands. -/
abbrev IArr (F : FTy → Type) (S : Shape) := (⟨S, .i32⟩ : BufTy).Contents (Elt F)
abbrev FArr (F : FTy → Type) (S : Shape) := (⟨S, .f32⟩ : BufTy).Contents (Elt F)

/-- Source node of every entry: row 0 of the edge list, then the self loops `0 … 99999`. -/
def srcs (e : IArr F S2x1600000) : IArr F S1700000 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Destination node of every entry: row 1 of the edge list, then the self loops. -/
def dsts (e : IArr F S2x1600000) : IArr F S1700000 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A list of node numbers as gather indices: a negative number wraps by the node count; one index per row. -/
def wrap (i : IArr F S1700000) : IArr F S1700000x1 :=
  broadcastInDim S1700000x1 ![0] bcast_S1700000_S1700000x1_0 (select (cmpi .slt i (broadcastInDim S1700000 ![] bcast_S_S1700000 (constantI S_ 32 0#32))) (addi i (broadcastInDim S1700000 ![] bcast_S_S1700000 (constantI S_ 32 100000#32))) i)

/-- A list of node numbers as scatter indices: one index per row, as it is. -/
def rows (i : IArr F S1700000) : IArr F S1700000x1 :=
  broadcastInDim S1700000x1 ![0] bcast_S1700000_S1700000x1_0 i

/-- In-degree with self loops: a one scattered onto every entry's destination. -/
def deg (e : IArr F S2x1600000) : FArr F S100000 :=
  Host.scatterAdd scatter_S100000_S1700000x1_S1700000_n_0_0_1 (broadcastInDim S100000 ![] bcast_S_S100000 (constant S_ .f32 0x00000000#32)) (rows (dsts e)) (broadcastInDim S1700000 ![] bcast_S_S1700000 (constant S_ .f32 0x3F800000#32))

/-- `deg ^ (-1/2)` where the degree is positive, 0 elsewhere. -/
def dinv (e : IArr F S2x1600000) : FArr F S100000 :=
  select (cmpf (F := F) .ogt (deg e) (broadcastInDim S100000 ![] bcast_S_S100000 (constant S_ .f32 0x00000000#32))) (Host.rsqrt (deg e)) (broadcastInDim S100000 ![] bcast_S_S100000 (id (constant S_ .f32 0x00000000#32)))

/-- The weight of every entry: `dinv` at its source times `dinv` at its destination. -/
def norm (e : IArr F S2x1600000) : FArr F S1700000 :=
  mulf (Host.gather gather_S100000_S1700000x1_S1700000_n_0_n_n_0_1_1 (dinv e) (wrap (srcs e))) (Host.gather gather_S100000_S1700000x1_S1700000_n_0_n_n_0_1_1 (dinv e) (wrap (dsts e)))

/-- The weights as a column, one per entry. -/
def normCol (e : IArr F S2x1600000) : FArr F S1700000x1 :=
  broadcastInDim S1700000x1 ![0] bcast_S1700000_S1700000x1_0 (norm e)

/-- One aggregation of width 32 over given entry lists `s`, `d` and a given weight column `nc`: gather the sources' rows
    of `H`, scale each by its weight, add into the destinations' rows, add the bias. -/
def agg1 (H : FArr F S100000x32) (s d : IArr F S1700000) (nc : FArr F S1700000x1) (b : FArr F S32) : FArr F S100000x32 :=
  addf (Host.scatterAdd scatter_S100000x32_S1700000x1_S1700000x32_1_0_0_1 (broadcastInDim S100000x32 ![] bcast_S_S100000x32 (constant S_ .f32 0x00000000#32)) (rows d) (mulf (Host.gather gather_S100000x32_S1700000x1_S1700000x32_1_0_n_n_0_1_132 H (wrap s)) (broadcastInDim S1700000x32 ![0, 1] bcast_S1700000x1_S1700000x32_0_1 nc))) (broadcastInDim S100000x32 ![0, 1] bcast_S1x32_S100000x32_0_1 (broadcastInDim S1x32 ![1] bcast_S32_S1x32_1 b))

/-- The first layer over a node table `H` of width 32, from the edge list. -/
def layer1 (H : FArr F S100000x32) (e : IArr F S2x1600000) (b : FArr F S32) : FArr F S100000x32 :=
  agg1 H (srcs e) (dsts e) (normCol e) b

/-- `max h 0`, entry by entry. -/
def relu (h : FArr F S100000x32) : FArr F S100000x32 :=
  maximumf h (broadcastInDim S100000x32 ![] bcast_S_S100000x32 (constant S_ .f32 0x00000000#32))

/-- The same aggregation at width 40. -/
def agg2 (H : FArr F S100000x40) (s d : IArr F S1700000) (nc : FArr F S1700000x1) (b : FArr F S40) : FArr F S100000x40 :=
  addf (Host.scatterAdd scatter_S100000x40_S1700000x1_S1700000x40_1_0_0_1 (broadcastInDim S100000x40 ![] bcast_S_S100000x40 (constant S_ .f32 0x00000000#32)) (rows d) (mulf (Host.gather gather_S100000x40_S1700000x1_S1700000x40_1_0_n_n_0_1_140 H (wrap s)) (broadcastInDim S1700000x40 ![0, 1] bcast_S1700000x1_S1700000x40_0_1 nc))) (broadcastInDim S100000x40 ![0, 1] bcast_S1x40_S100000x40_0_1 (broadcastInDim S1x40 ![1] bcast_S40_S1x40_1 b))

/-- The second layer over a node table `H` of width 40, from the edge list. -/
def layer2 (H : FArr F S100000x40) (e : IArr F S2x1600000) (b : FArr F S40) : FArr F S100000x40 :=
  agg2 H (srcs e) (dsts e) (normCol e) b

end Cert.KernelIdeal.Conv

end
-- ==== Proof.Dense.lean ====
/-
  The two dense products of the network at `Ideal`, each as ONE function of its two arrays, entry by entry:
  `prod1 x w (r, j) = ∑ k < 512, x (r, k) · w (k, j)`  (100000 × 512 by 512 × 32) and
  `prod2 h w (r, j) = ∑ k < 32,  h (r, k) · w (k, j)`  (100000 × 32 by 32 × 40), sums over the extended reals.
  The kernel computes each in 25 row blocks of 4000 rows on the matrix unit, the reference by one contraction; both are
  these sums.
-/
import proofs.«150166_j1975684956587_1_alg».proof.KernelIdeal
import Idealize.ShloMosaic.PureOps.Ideal

noncomputable section

namespace Cert.KernelIdeal.Dense

open Idealize.ShloMosaic Idealize.ShloMosaic.TcCoe Cert.KernelIdeal

/-- Entry `(r, k)` of a 100000 × 512 array, for the row of the result entry `i`. -/
abbrev lrow1 (i : S100000x32.Idx) (k : Fin 512) : S100000x512.Idx := fun a => match a with
  | ⟨0, _⟩ => ⟨(i 0).val, (i 0).isLt⟩
  | ⟨1, _⟩ => ⟨k.val, k.isLt⟩
/-- Entry `(k, j)` of a 512 × 32 array, for the column of the result entry `i`. -/
abbrev rcol1 (i : S100000x32.Idx) (k : Fin 512) : S512x32.Idx := fun a => match a with
  | ⟨0, _⟩ => ⟨k.val, k.isLt⟩
  | ⟨1, _⟩ => ⟨(i 1).val, (i 1).isLt⟩

/-- The first product: rows of `x` against columns of `w`. -/
def prod1 (x : (⟨S100000x512, .f32⟩ : BufTy).Contents (Elt Ideal)) (w : (⟨S512x32, .f32⟩ : BufTy).Contents (Elt Ideal)) :
    (⟨S100000x32, .f32⟩ : BufTy).Contents (Elt Ideal) :=
  fun i => ∑ k : Fin 512, x (lrow1 i k) * w (rcol1 i k)

/-- Entry `(r, k)` of a 100000 × 32 array, for the row of the result entry `i`. -/
abbrev lrow2 (i : S100000x40.Idx) (k : Fin 32) : S100000x32.Idx := fun a => match a with
  | ⟨0, _⟩ => ⟨(i 0).val, (i 0).isLt⟩
  | ⟨1, _⟩ => ⟨k.val, k.isLt⟩
/-- Entry `(k, j)` of a 32 × 40 array, for the column of the result entry `i`. -/
abbrev rcol2 (i : S100000x40.Idx) (k : Fin 32) : S32x40.Idx := fun a => match a with
  | ⟨0, _⟩ => ⟨k.val, k.isLt⟩
  | ⟨1, _⟩ => ⟨(i 1).val, (i 1).isLt⟩

/-- The second product. -/
def prod2 (h : (⟨S100000x32, .f32⟩ : BufTy).Contents (Elt Ideal)) (w : (⟨S32x40, .f32⟩ : BufTy).Contents (Elt Ideal)) :
    (⟨S100000x40, .f32⟩ : BufTy).Contents (Elt Ideal) :=
  fun i => ∑ k : Fin 32, h (lrow2 i k) * w (rcol2 i k)

end Cert.KernelIdeal.Dense

end
-- ==== Proof.Dense1.lean ====
/-
  The first dense product as the kernel computes it: 25 grid points, point `t` multiplying rows `4000 t … 4000 t + 3999` of
  `x` (its block of window 0) by the whole of `W1` (window 1, the same block at every point) on the matrix unit, into a zero
  accumulator, and writing the 4000 × 32 result back as block `t` of the output (window 2).
  At `Ideal` the casts to bf16 are the identity and the matrix unit's product into zero is the plain sum over the
  contracted axis, so what point `t` writes back is block `t` of `Dense.prod1 x W1`; the 25 blocks tile the 100000 rows, so
  the output array ends holding `Dense.prod1 x W1` — whatever contents `V` the region is entered from.
-/
import proofs.«150166_j1975684956587_1_alg».proof.Proof.Gen.KernelIdeal.Frame
import proofs.«150166_j1975684956587_1_alg».proof.Proof.Dense
import Idealize.ShloMosaic.Lib.Pipeline.Value
import Idealize.ShloMosaic.Lib.ValueIdx
import Idealize.ShloMosaic.PureOps.Ideal.Laws

set_option maxRecDepth 16384

noncomputable section

namespace Cert.KernelIdeal.Dense1

open Idealize.ShloMosaic Idealize.ShloMosaic.TcCoe Idealize.SL.Sem
open Idealize.ShloMosaic.Pipeline (Dat)
open Cert.KernelIdeal Cert.KernelIdeal.Gen Cert.KernelIdeal.Dense

variable (V : (c : Dev nD) → (b : Ref sig .tc) → Buf (Elt Ideal) ((c : Thread nD τ).loc b))

theorem hz : (![0, 0] : Fin 2 → Nat) = fun _ => 0 := funext fun a => by fin_cases a <;> rfl

/-! ## The block product at an entry -/

/-- The left operand's index for result entry `j` and contraction position `q`: row `j 0` … -/
theorem lhs_0 (j : S4000x32.Idx) (q : dot_S4000x512_S512x32_S4000x32_1_0_0_1_n_n.contr.Idx) :
    (dot_S4000x512_S512x32_S4000x32_1_0_0_1_n_n.lhsIdx j q 0).val = (j 0).val := by
  unfold DotDims.lhsIdx
  rw [dif_neg (show ¬(0 : Fin S4000x512.rank) ∈ dot_S4000x512_S512x32_S4000x32_1_0_0_1_n_n.lhsBatch by decide), dif_pos (show (0 : Fin S4000x512.rank) ∈ dot_S4000x512_S512x32_S4000x32_1_0_0_1_n_n.lhsNonContracting by decide)]
  rfl
/-- … column `q`. -/
theorem lhs_1 (j : S4000x32.Idx) (q : dot_S4000x512_S512x32_S4000x32_1_0_0_1_n_n.contr.Idx) :
    (dot_S4000x512_S512x32_S4000x32_1_0_0_1_n_n.lhsIdx j q 1).val = (q ⟨0, by decide⟩).val :=
  dot_S4000x512_S512x32_S4000x32_1_0_0_1_n_n.lhsIdx_val_of_single rfl j q
/-- The right operand's index: row `q` … -/
theorem rhs_0 (j : S4000x32.Idx) (q : dot_S4000x512_S512x32_S4000x32_1_0_0_1_n_n.contr.Idx) :
    (dot_S4000x512_S512x32_S4000x32_1_0_0_1_n_n.rhsIdx j q 0).val = (q ⟨0, by decide⟩).val :=
  dot_S4000x512_S512x32_S4000x32_1_0_0_1_n_n.rhsIdx_val_of_single rfl j q
/-- … column `j 1`. -/
theorem rhs_1 (j : S4000x32.Idx) (q : dot_S4000x512_S512x32_S4000x32_1_0_0_1_n_n.contr.Idx) :
    (dot_S4000x512_S512x32_S4000x32_1_0_0_1_n_n.rhsIdx j q 1).val = (j 1).val := by
  unfold DotDims.rhsIdx
  rw [dif_neg (show ¬(1 : Fin S512x32.rank) ∈ dot_S4000x512_S512x32_S4000x32_1_0_0_1_n_n.rhsBatch by decide), dif_pos (show (1 : Fin S512x32.rank) ∈ dot_S4000x512_S512x32_S4000x32_1_0_0_1_n_n.rhsNonContracting by decide)]
  rfl

/-- Entry `(r, k)` of the 4000 × 512 block, for the row of the block's result entry `j`. -/
abbrev lblk (j : S4000x32.Idx) (k : Fin 512) : S4000x512.Idx := fun a => match a with
  | ⟨0, _⟩ => ⟨(j 0).val, (j 0).isLt⟩
  | ⟨1, _⟩ => ⟨k.val, k.isLt⟩
/-- Entry `(k, c)` of `W1`, for the column of the block's result entry `j`. -/
abbrev rblk (j : S4000x32.Idx) (k : Fin 512) : S512x32.Idx := fun a => match a with
  | ⟨0, _⟩ => ⟨k.val, k.isLt⟩
  | ⟨1, _⟩ => ⟨(j 1).val, (j 1).isLt⟩

/-- What the body stores, at an entry: the row of the `x` block against the column of `W1` (the bf16 casts are the
    identity at `Ideal`; the matrix unit's product into a zero accumulator is the sum over the contracted axis). -/
theorem pay_apply (x0 : Vec Ideal S4000x512 .f32) (x1 : Vec Ideal S512x32 .f32) (j : S4000x32.Idx) :
    k0_pay1 (F := Ideal) x0 x1 j = ∑ k : Fin 512, x0 (lblk j k) * x1 (rblk j k) := by
  have e : k0_pay1 (F := Ideal) x0 x1 = FloatOps.matmul (φ₁ := .bf16) (φ₂ := .bf16) dot_S4000x512_S512x32_S4000x32_1_0_0_1_n_n none x0 x1 (constant (F := Ideal) S4000x32 .f32 0x00000000#32) := rfl
  rw [e, Ideal.matmul_constant_zero_apply, ← Equiv.sum_comp (ValueIdx.contrEquiv1 dot_S4000x512_S512x32_S4000x32_1_0_0_1_n_n 512 rfl rfl).symm]
  refine Finset.sum_congr rfl fun k _ => ?_
  have hk := ValueIdx.contrEquiv1_symm_val dot_S4000x512_S512x32_S4000x32_1_0_0_1_n_n 512 rfl rfl k
  have el : dot_S4000x512_S512x32_S4000x32_1_0_0_1_n_n.lhsIdx j ((ValueIdx.contrEquiv1 dot_S4000x512_S512x32_S4000x32_1_0_0_1_n_n 512 rfl rfl).symm k) = lblk j k := funext fun a => Fin.ext (by
    match a with
    | ⟨0, _⟩ => exact lhs_0 _ _
    | ⟨1, _⟩ => exact (lhs_1 _ _).trans hk)
  have er : dot_S4000x512_S512x32_S4000x32_1_0_0_1_n_n.rhsIdx j ((ValueIdx.contrEquiv1 dot_S4000x512_S512x32_S4000x32_1_0_0_1_n_n 512 rfl rfl).symm k) = rblk j k := funext fun a => Fin.ext (by
    match a with
    | ⟨0, _⟩ => exact (rhs_0 _ _).trans hk
    | ⟨1, _⟩ => exact rhs_1 _ _)
  rw [el, er]

/-! ## From blocks to the array -/

/-- The printed index maps over the grid: the `x` block and the output block are the point's, `W1`'s block is the one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The two input arrays as the region finds them, and the two input blocks at point `t`, each at its literal type. -/
abbrev xarr (c : Dev nD) : (⟨S100000x512, .f32⟩ : BufTy).Contents (Elt Ideal) := V c main_arg0
abbrev warr (c : Dev nD) : (⟨S512x32, .f32⟩ : BufTy).Contents (Elt Ideal) := V c main_arg2
abbrev xblk (c : Dev nD) (t : Fin cfg0.N) : Vec Ideal S4000x512 .f32 := iblk0 V c 0 t
abbrev wblk (c : Dev nD) (t : Fin cfg0.N) : Vec Ideal S512x32 .f32 := iblk0 V c 1 t

/-- The `x` block at point `t` is rows `4000 t … 4000 t + 3999` of `x`. -/
theorem xblk_apply (c : Dev nD) (t : Fin cfg0.N) (y : S4000x512.Idx) (i : S100000x512.Idx)
    (h0 : (i 0).val = 4000 * t.val + (y 0).val) (h1 : (i 1).val = (y 1).val) :
    xblk V c t y = xarr V c i := by
  obtain ⟨e0, e1, -⟩ := idx_facts t
  show V c main_arg0 (((cfg0.win 0).blk t).view.emb y) = V c main_arg0 i
  refine congrArg _ (funext fun a => Fin.ext ?_)
  match a with
  | ⟨0, _⟩ => show win0_0.index t (0 : Fin 2) * 4000 + 1 * (y 0).val = (i 0).val; omega
  | ⟨1, _⟩ => show win0_0.index t (1 : Fin 2) * 512 + 1 * (y 1).val = (i 1).val; omega

/-- The `W1` block at every point is the whole of `W1`. -/
theorem wblk_apply (c : Dev nD) (t : Fin cfg0.N) (y : S512x32.Idx) (i : S512x32.Idx)
    (h0 : (i 0).val = (y 0).val) (h1 : (i 1).val = (y 1).val) :
    wblk V c t y = warr V c i := by
  obtain ⟨-, -, e2, e3, -⟩ := idx_facts t
  show V c main_arg2 (((cfg0.win 1).blk t).view.emb y) = V c main_arg2 i
  refine congrArg _ (funext fun a => Fin.ext ?_)
  match a with
  | ⟨0, _⟩ => show win0_1.index t (0 : Fin 2) * 512 + 1 * (y 0).val = (i 0).val; omega
  | ⟨1, _⟩ => show win0_1.index t (1 : Fin 2) * 32 + 1 * (y 1).val = (i 1).val; omega

/-- WHAT POINT `t` WRITES BACK is block `t` of the product of the two arrays as the region finds them. -/
theorem flushed_eq (c : Dev nD) (t : Fin cfg0.N) :
    (dat0 V c).flushed 2 t = ((cfg0.win 2).blk t).view.read (Elt Ideal) (prod1 (xarr V c) (warr V c)) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x32) hz]
  obtain ⟨-, -, -, -, e4, e5⟩ := idx_facts t
  funext j
  refine (pay_apply (xblk V c t) (wblk V c t) j).trans ?_
  show _ = prod1 (xarr V c) (warr V c) (((cfg0.win 2).blk t).view.emb j)
  simp only [prod1]
  refine Finset.sum_congr rfl fun k _ => ?_
  have hx := xblk_apply V c t (lblk j k) (lrow1 (((cfg0.win 2).blk t).view.emb j) k)
    (by show win0_2.index t (0 : Fin 2) * 4000 + 1 * (j 0).val = 4000 * t.val + (j 0).val; omega) rfl
  have hw := wblk_apply V c t (rblk j k) (rcol1 (((cfg0.win 2).blk t).view.emb j) k) rfl
    (by show win0_2.index t (1 : Fin 2) * 32 + 1 * (j 1).val = (j 1).val; omega)
  rw [hx, hw]

/-- An index of the output array is in point `t`'s block iff each coordinate is in the block's range on its axis. -/
theorem mem_blk (t : Fin cfg0.N) (i : S100000x32.Idx) :
    i ∈ ((cfg0.win 2).blk t).view.set ↔ ∀ a : Fin 2, win0_2.index t a * S4000x32.size a ≤ (i a).val ∧ (i a).val < win0_2.index t a * S4000x32.size a + S4000x32.size a := by
  show i ∈ ((View.whole main_v31).slice (win0_2.rect t)).set ↔ _
  rw [View.set_slice_whole, Rect.mem_set_unit]
  exact Iff.rfl

/-- Every row block is some point's: block `q` is point `q`'s. -/
theorem idx_onto : ∀ q : Fin 25, ∃ t : Fin cfg0.N, win0_2.index t = ![q.val, 0] :=
  (by decide +kernel : ∀ q : Fin 25, ∃ t : Fin grid0.N, win0_2.index t = ![q.val, 0])

/-- The 25 blocks cover the output array: row `r` is in the block of point `r / 4000`. -/
theorem cover (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := idx_onto ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 32 ≤ (i 1).val ∧ (i 1).val < win0_2.index t (1 : Fin 2) * 32 + 32; omega

/-- THE OUTPUT ARRAY after the region: the product of the two input arrays as the region finds them. -/
theorem final (c : Dev nD) : (dat0 V c).arrAt 2 cfg0.N = prod1 (xarr V c) (warr V c) :=
  (dat0 V c).arrAt_eq_of_cover 2 (prod1 (xarr V c) (warr V c)) (fun t _ => flushed_eq V c t) cover

end Cert.KernelIdeal.Dense1

end
-- ==== Proof.Dense2.lean ====
/-
  The second dense product as the kernel computes it: 25 grid points, point t multiplying rows 4000 t … 4000 t + 3999 of
  the rectified first layer h (its block of window 0) by the whole of W2 (window 1, the same block at every point) on the
  matrix unit, into a zero accumulator, and writing the 4000 × 40 result back as block t of the output (window 2). The body
  also casts its h block to its own shape, which is the identity. At Ideal what point t writes back is block t of
  Dense.prod2 h W2; the 25 blocks tile the 100000 rows, so the output array ends holding Dense.prod2 h W2, whatever
  contents V the region is entered from.
-/
import proofs.«150166_j1975684956587_1_alg».proof.Proof.Gen.KernelIdeal.Frame
import proofs.«150166_j1975684956587_1_alg».proof.Proof.Dense
import Idealize.ShloMosaic.Lib.Pipeline.Value
import Idealize.ShloMosaic.Lib.ValueIdx
import Idealize.ShloMosaic.PureOps.Ideal.Laws

set_option maxRecDepth 16384

noncomputable section

namespace Cert.KernelIdeal.Dense2

open Idealize.ShloMosaic Idealize.ShloMosaic.TcCoe Idealize.SL.Sem
open Idealize.ShloMosaic.Pipeline (Dat)
open Cert.KernelIdeal Cert.KernelIdeal.Gen Cert.KernelIdeal.Dense

variable (V : (c : Dev nD) → (b : Ref sig .tc) → Buf (Elt Ideal) ((c : Thread nD τ).loc b))

theorem hz : (![0, 0] : Fin 2 → Nat) = fun _ => 0 := funext fun a => by fin_cases a <;> rfl

/-! ## The block product at an entry -/

/-- The left operand's index for result entry `j` and contraction position `q`: row `j 0` … -/
theorem lhs_0 (j : S4000x40.Idx) (q : dot_S4000x32_S32x40_S4000x40_1_0_0_1_n_n.contr.Idx) :
    (dot_S4000x32_S32x40_S4000x40_1_0_0_1_n_n.lhsIdx j q 0).val = (j 0).val := by
  unfold DotDims.lhsIdx
  rw [dif_neg (show ¬(0 : Fin S4000x32.rank) ∈ dot_S4000x32_S32x40_S4000x40_1_0_0_1_n_n.lhsBatch by decide), dif_pos (show (0 : Fin S4000x32.rank) ∈ dot_S4000x32_S32x40_S4000x40_1_0_0_1_n_n.lhsNonContracting by decide)]
  rfl
/-- … column `q`. -/
theorem lhs_1 (j : S4000x40.Idx) (q : dot_S4000x32_S32x40_S4000x40_1_0_0_1_n_n.contr.Idx) :
    (dot_S4000x32_S32x40_S4000x40_1_0_0_1_n_n.lhsIdx j q 1).val = (q ⟨0, by decide⟩).val :=
  dot_S4000x32_S32x40_S4000x40_1_0_0_1_n_n.lhsIdx_val_of_single rfl j q
/-- The right operand's index: row `q` … -/
theorem rhs_0 (j : S4000x40.Idx) (q : dot_S4000x32_S32x40_S4000x40_1_0_0_1_n_n.contr.Idx) :
    (dot_S4000x32_S32x40_S4000x40_1_0_0_1_n_n.rhsIdx j q 0).val = (q ⟨0, by decide⟩).val :=
  dot_S4000x32_S32x40_S4000x40_1_0_0_1_n_n.rhsIdx_val_of_single rfl j q
/-- … column `j 1`. -/
theorem rhs_1 (j : S4000x40.Idx) (q : dot_S4000x32_S32x40_S4000x40_1_0_0_1_n_n.contr.Idx) :
    (dot_S4000x32_S32x40_S4000x40_1_0_0_1_n_n.rhsIdx j q 1).val = (j 1).val := by
  unfold DotDims.rhsIdx
  rw [dif_neg (show ¬(1 : Fin S32x40.rank) ∈ dot_S4000x32_S32x40_S4000x40_1_0_0_1_n_n.rhsBatch by decide), dif_pos (show (1 : Fin S32x40.rank) ∈ dot_S4000x32_S32x40_S4000x40_1_0_0_1_n_n.rhsNonContracting by decide)]
  rfl

/-- Entry `(r, k)` of the 4000 × 32 block, for the row of the block's result entry `j`. -/
abbrev lblk (j : S4000x40.Idx) (k : Fin 32) : S4000x32.Idx := fun a => match a with
  | ⟨0, _⟩ => ⟨(j 0).val, (j 0).isLt⟩
  | ⟨1, _⟩ => ⟨k.val, k.isLt⟩
/-- Entry `(k, c)` of `W2`, for the column of the block's result entry `j`. -/
abbrev rblk (j : S4000x40.Idx) (k : Fin 32) : S32x40.Idx := fun a => match a with
  | ⟨0, _⟩ => ⟨k.val, k.isLt⟩
  | ⟨1, _⟩ => ⟨(j 1).val, (j 1).isLt⟩

/-- What the body stores, at an entry: the row of the `h` block against the column of `W2` (the bf16 casts are the
    identity at `Ideal`; the matrix unit's product into a zero accumulator is the sum over the contracted axis). -/
theorem pay_apply (x0 : Vec Ideal S4000x32 .f32) (x1 : Vec Ideal S32x40 .f32) (j : S4000x40.Idx) :
    k1_pay1 (F := Ideal) x0 x1 j = ∑ k : Fin 32, x0 (lblk j k) * x1 (rblk j k) := by
  have e : k1_pay1 (F := Ideal) x0 x1 = FloatOps.matmul (φ₁ := .bf16) (φ₂ := .bf16) dot_S4000x32_S32x40_S4000x40_1_0_0_1_n_n none x0 x1 (constant (F := Ideal) S4000x40 .f32 0x00000000#32) := by unfold k1_pay1; rw [shapeCast_self]; rfl
  rw [e, Ideal.matmul_constant_zero_apply, ← Equiv.sum_comp (ValueIdx.contrEquiv1 dot_S4000x32_S32x40_S4000x40_1_0_0_1_n_n 32 rfl rfl).symm]
  refine Finset.sum_congr rfl fun k _ => ?_
  have hk := ValueIdx.contrEquiv1_symm_val dot_S4000x32_S32x40_S4000x40_1_0_0_1_n_n 32 rfl rfl k
  have el : dot_S4000x32_S32x40_S4000x40_1_0_0_1_n_n.lhsIdx j ((ValueIdx.contrEquiv1 dot_S4000x32_S32x40_S4000x40_1_0_0_1_n_n 32 rfl rfl).symm k) = lblk j k := funext fun a => Fin.ext (by
    match a with
    | ⟨0, _⟩ => exact lhs_0 _ _
    | ⟨1, _⟩ => exact (lhs_1 _ _).trans hk)
  have er : dot_S4000x32_S32x40_S4000x40_1_0_0_1_n_n.rhsIdx j ((ValueIdx.contrEquiv1 dot_S4000x32_S32x40_S4000x40_1_0_0_1_n_n 32 rfl rfl).symm k) = rblk j k := funext fun a => Fin.ext (by
    match a with
    | ⟨0, _⟩ => exact (rhs_0 _ _).trans hk
    | ⟨1, _⟩ => exact rhs_1 _ _)
  rw [el, er]

/-! ## From blocks to the array -/

/-- The printed index maps over the grid: the `h` block and the output block are the point's, `W2`'s block is the one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The two input arrays as the region finds them, and the two input blocks at point `t`, each at its literal type. -/
abbrev xarr (c : Dev nD) : (⟨S100000x32, .f32⟩ : BufTy).Contents (Elt Ideal) := V c main_v47
abbrev warr (c : Dev nD) : (⟨S32x40, .f32⟩ : BufTy).Contents (Elt Ideal) := V c main_arg4
abbrev xblk (c : Dev nD) (t : Fin cfg1.N) : Vec Ideal S4000x32 .f32 := iblk1 V c 0 t
abbrev wblk (c : Dev nD) (t : Fin cfg1.N) : Vec Ideal S32x40 .f32 := iblk1 V c 1 t

/-- The `h` block at point `t` is rows `4000 t … 4000 t + 3999` of `h`. -/
theorem xblk_apply (c : Dev nD) (t : Fin cfg1.N) (y : S4000x32.Idx) (i : S100000x32.Idx)
    (h0 : (i 0).val = 4000 * t.val + (y 0).val) (h1 : (i 1).val = (y 1).val) :
    xblk V c t y = xarr V c i := by
  obtain ⟨e0, e1, -⟩ := idx_facts t
  show V c main_v47 (((cfg1.win 0).blk t).view.emb y) = V c main_v47 i
  refine congrArg _ (funext fun a => Fin.ext ?_)
  match a with
  | ⟨0, _⟩ => show win1_0.index t (0 : Fin 2) * 4000 + 1 * (y 0).val = (i 0).val; omega
  | ⟨1, _⟩ => show win1_0.index t (1 : Fin 2) * 32 + 1 * (y 1).val = (i 1).val; omega

/-- The `W2` block at every point is the whole of `W2`. -/
theorem wblk_apply (c : Dev nD) (t : Fin cfg1.N) (y : S32x40.Idx) (i : S32x40.Idx)
    (h0 : (i 0).val = (y 0).val) (h1 : (i 1).val = (y 1).val) :
    wblk V c t y = warr V c i := by
  obtain ⟨-, -, e2, e3, -⟩ := idx_facts t
  show V c main_arg4 (((cfg1.win 1).blk t).view.emb y) = V c main_arg4 i
  refine congrArg _ (funext fun a => Fin.ext ?_)
  match a with
  | ⟨0, _⟩ => show win1_1.index t (0 : Fin 2) * 32 + 1 * (y 0).val = (i 0).val; omega
  | ⟨1, _⟩ => show win1_1.index t (1 : Fin 2) * 40 + 1 * (y 1).val = (i 1).val; omega

/-- WHAT POINT `t` WRITES BACK is block `t` of the product of the two arrays as the region finds them. -/
theorem flushed_eq (c : Dev nD) (t : Fin cfg1.N) :
    (dat1 V c).flushed 2 t = ((cfg1.win 2).blk t).view.read (Elt Ideal) (prod2 (xarr V c) (warr V c)) := by
  show (cfg1.win 2).cut (grid1.coords t) ((dat1 V c).after 2 t) = _
  rw [after1_2]
  unfold out1_2
  rw [View.canon_unit_zero hz]
  simp only [View.ld_unit_zero (S := S4000x32) hz, View.ld_unit_zero (S := S32x40) hz]
  obtain ⟨-, -, -, -, e4, e5⟩ := idx_facts t
  funext j
  refine (pay_apply (xblk V c t) (wblk V c t) j).trans ?_
  show _ = prod2 (xarr V c) (warr V c) (((cfg1.win 2).blk t).view.emb j)
  simp only [prod2]
  refine Finset.sum_congr rfl fun k _ => ?_
  have hx := xblk_apply V c t (lblk j k) (lrow2 (((cfg1.win 2).blk t).view.emb j) k)
    (by show win1_2.index t (0 : Fin 2) * 4000 + 1 * (j 0).val = 4000 * t.val + (j 0).val; omega) rfl
  have hw := wblk_apply V c t (rblk j k) (rcol2 (((cfg1.win 2).blk t).view.emb j) k) rfl
    (by show win1_2.index t (1 : Fin 2) * 40 + 1 * (j 1).val = (j 1).val; omega)
  rw [hx, hw]

/-- An index of the output array is in point `t`'s block iff each coordinate is in the block's range on its axis. -/
theorem mem_blk (t : Fin cfg1.N) (i : S100000x40.Idx) :
    i ∈ ((cfg1.win 2).blk t).view.set ↔ ∀ a : Fin 2, win1_2.index t a * S4000x40.size a ≤ (i a).val ∧ (i a).val < win1_2.index t a * S4000x40.size a + S4000x40.size a := by
  show i ∈ ((View.whole main_v48).slice (win1_2.rect t)).set ↔ _
  rw [View.set_slice_whole, Rect.mem_set_unit]
  exact Iff.rfl

/-- Every row block is some point's: block `q` is point `q`'s. -/
theorem idx_onto : ∀ q : Fin 25, ∃ t : Fin cfg1.N, win1_2.index t = ![q.val, 0] :=
  (by decide +kernel : ∀ q : Fin 25, ∃ t : Fin grid1.N, win1_2.index t = ![q.val, 0])

/-- The 25 blocks cover the output array: row `r` is in the block of point `r / 4000`. -/
theorem cover (i : S100000x40.Idx) : ∃ t : Fin cfg1.N, (cfg1.win 2).flush t = true ∧ i ∈ ((cfg1.win 2).blk t).view.set := by
  have hi0 : (i 0).val < 100000 := (i 0).isLt
  have hi1 : (i 1).val < 40 := (i 1).isLt
  obtain ⟨t, ht⟩ := idx_onto ⟨(i 0).val / 4000, by omega⟩
  have q0 : win1_2.index t (0 : Fin 2) = (i 0).val / 4000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 40 ≤ (i 1).val ∧ (i 1).val < win1_2.index t (1 : Fin 2) * 40 + 40; omega

/-- THE OUTPUT ARRAY after the region: the product of the two input arrays as the region finds them. -/
theorem final (c : Dev nD) : (dat1 V c).arrAt 2 cfg1.N = prod2 (xarr V c) (warr V c) :=
  (dat1 V c).arrAt_eq_of_cover 2 (prod2 (xarr V c) (warr V c)) (fun t _ => flushed_eq V c t) cover

end Cert.KernelIdeal.Dense2

end
-- ==== Proof.KernelValue.lean ====
/-
  The kernel program's result, read as the network.

  Its run ends with the result buffer at the last boundary's contents, which is a fold through @main: three stretches of
  host operations before the first product's region, that region, two stretches, the second product's region, one last
  stretch. Read back from the end:
    the last stretch is one aggregation of width 40 over the second region's output, the entry lists and the weights;
    the second region leaves `Dense.prod2` of the rectified first layer and `W2` in its output (Dense2), every other buffer as it was;
    the middle stretches are one aggregation of width 32 over the first region's output, the bias, and `max · 0`;
    the first region leaves `Dense.prod1 x W1` in its output (Dense1), every other buffer as it was;
    the first stretches compute the entry lists and the weights from the edge list and touch no argument.
  Each stretch is read once, from ARBITRARY contents `W` and at any float family (`pre_*`, `mid_*`, `post_out`); the run's own
  contents are then followed buffer by buffer (`at3_*` … `at7_*`), and `result` puts the pieces together.
-/
import proofs.«150166_j1975684956587_1_alg».proof.Proof.Gen.KernelIdeal.Frame
import proofs.«150166_j1975684956587_1_alg».proof.Proof.Conv
import proofs.«150166_j1975684956587_1_alg».proof.Proof.Dense1
import proofs.«150166_j1975684956587_1_alg».proof.Proof.Dense2
import Idealize.ShloMosaic.Lib.StableHlo.Run

set_option maxRecDepth 16384

noncomputable section

namespace Cert.KernelIdeal.KernelValue

open Idealize.ShloMosaic Idealize.ShloMosaic.TcCoe Idealize.SL.Sem
open Cert.KernelIdeal Cert.KernelIdeal.Gen Cert.KernelIdeal.Conv Cert.KernelIdeal.Dense

/-! ## The host stretches, from arbitrary contents -/

section Stretches

variable {F : FTy → Type} [FloatOps F] (W : Valuation τ sig (Elt F))

/-- Before the first region: the sources' list, … -/
theorem pre_srcs : StableHlo.after (hostOps0_2 (F := F)) (StableHlo.after hostOps0_1 (StableHlo.after hostOps0 W)) (Proc.devRef .tc main_v5) = srcs (W (Proc.devRef .tc main_arg1)) := by
  unfold srcs; after_results <;> rfl
/-- … the destinations' list, … -/
theorem pre_dsts : StableHlo.after (hostOps0_2 (F := F)) (StableHlo.after hostOps0_1 (StableHlo.after hostOps0 W)) (Proc.devRef .tc main_v6) = dsts (W (Proc.devRef .tc main_arg1)) := by
  unfold dsts; after_results <;> rfl
set_option maxHeartbeats 8000000 in  -- some forty operations, several results read more than once
/-- … and the weights' column, all from the edge list. -/
theorem pre_norm : StableHlo.after (hostOps0_2 (F := F)) (StableHlo.after hostOps0_1 (StableHlo.after hostOps0 W)) (Proc.devRef .tc main_v30) = normCol (W (Proc.devRef .tc main_arg1)) := by
  unfold normCol Conv.norm dinv deg rows wrap srcs dsts; after_results <;> rfl
/-- No operation before the first region writes an argument. -/
theorem pre_main_arg0 : StableHlo.after (hostOps0_2 (F := F)) (StableHlo.after hostOps0_1 (StableHlo.after hostOps0 W)) (Proc.devRef .tc main_arg0) = W (Proc.devRef .tc main_arg0) := by after_results
theorem pre_main_arg2 : StableHlo.after (hostOps0_2 (F := F)) (StableHlo.after hostOps0_1 (StableHlo.after hostOps0 W)) (Proc.devRef .tc main_arg2) = W (Proc.devRef .tc main_arg2) := by after_results
theorem pre_main_arg3 : StableHlo.after (hostOps0_2 (F := F)) (StableHlo.after hostOps0_1 (StableHlo.after hostOps0 W)) (Proc.devRef .tc main_arg3) = W (Proc.devRef .tc main_arg3) := by after_results
theorem pre_main_arg4 : StableHlo.after (hostOps0_2 (F := F)) (StableHlo.after hostOps0_1 (StableHlo.after hostOps0 W)) (Proc.devRef .tc main_arg4) = W (Proc.devRef .tc main_arg4) := by after_results
theorem pre_main_arg5 : StableHlo.after (hostOps0_2 (F := F)) (StableHlo.after hostOps0_1 (StableHlo.after hostOps0 W)) (Proc.devRef .tc main_arg5) = W (Proc.devRef .tc main_arg5) := by after_results

set_option maxHeartbeats 8000000 in
/-- Between the regions: one aggregation of width 32 over the first region's output, rectified. -/
theorem mid_h : StableHlo.after (hostOps1_1 (F := F)) (StableHlo.after hostOps1 W) (Proc.devRef .tc main_v47)
    = relu (agg1 (W (Proc.devRef .tc main_v31)) (W (Proc.devRef .tc main_v5)) (W (Proc.devRef .tc main_v6)) (W (Proc.devRef .tc main_v30)) (W (Proc.devRef .tc main_arg3))) := by
  unfold relu agg1 rows wrap; after_results <;> rfl
/-- The entry lists, the weights and the later arguments pass through. -/
theorem mid_main_v5 : StableHlo.after (hostOps1_1 (F := F)) (StableHlo.after hostOps1 W) (Proc.devRef .tc main_v5) = W (Proc.devRef .tc main_v5) := by after_results
theorem mid_main_v6 : StableHlo.after (hostOps1_1 (F := F)) (StableHlo.after hostOps1 W) (Proc.devRef .tc main_v6) = W (Proc.devRef .tc main_v6) := by after_results
theorem mid_main_v30 : StableHlo.after (hostOps1_1 (F := F)) (StableHlo.after hostOps1 W) (Proc.devRef .tc main_v30) = W (Proc.devRef .tc main_v30) := by after_results
theorem mid_main_arg4 : StableHlo.after (hostOps1_1 (F := F)) (StableHlo.after hostOps1 W) (Proc.devRef .tc main_arg4) = W (Proc.devRef .tc main_arg4) := by after_results
theorem mid_main_arg5 : StableHlo.after (hostOps1_1 (F := F)) (StableHlo.after hostOps1 W) (Proc.devRef .tc main_arg5) = W (Proc.devRef .tc main_arg5) := by after_results

set_option maxHeartbeats 8000000 in
/-- After the second region: one aggregation of width 40 over its output. -/
theorem post_out : StableHlo.after (hostOps2 (F := F)) W (Proc.devRef .tc main_v63)
    = agg2 (W (Proc.devRef .tc main_v48)) (W (Proc.devRef .tc main_v5)) (W (Proc.devRef .tc main_v6)) (W (Proc.devRef .tc main_v30)) (W (Proc.devRef .tc main_arg5)) := by
  unfold agg2 rows wrap; after_results <;> rfl

end Stretches

/-! ## The run's own contents, boundary by boundary -/

section Run

variable (m : (ℓ : Loc nD τ sig) → Buf (Elt Ideal) ℓ) (ρ : Dev nD → PrngReg) (c : Dev nD)

/-- At the first region's entry. -/
theorem at3_srcs : W3 m ρ c (Proc.devRef .tc main_v5) = srcs (m ((c.tc : Thread nD τ).loc main_arg1)) := pre_srcs (W0 m ρ c)
theorem at3_dsts : W3 m ρ c (Proc.devRef .tc main_v6) = dsts (m ((c.tc : Thread nD τ).loc main_arg1)) := pre_dsts (W0 m ρ c)
theorem at3_norm : W3 m ρ c (Proc.devRef .tc main_v30) = normCol (m ((c.tc : Thread nD τ).loc main_arg1)) := pre_norm (W0 m ρ c)
theorem at3_arg0 : W3 m ρ c (Proc.devRef .tc main_arg0) = (m ((c.tc : Thread nD τ).loc main_arg0)) := pre_main_arg0 (W0 m ρ c)
theorem at3_arg2 : W3 m ρ c (Proc.devRef .tc main_arg2) = (m ((c.tc : Thread nD τ).loc main_arg2)) := pre_main_arg2 (W0 m ρ c)
theorem at3_arg3 : W3 m ρ c (Proc.devRef .tc main_arg3) = (m ((c.tc : Thread nD τ).loc main_arg3)) := pre_main_arg3 (W0 m ρ c)
theorem at3_arg4 : W3 m ρ c (Proc.devRef .tc main_arg4) = (m ((c.tc : Thread nD τ).loc main_arg4)) := pre_main_arg4 (W0 m ρ c)
theorem at3_arg5 : W3 m ρ c (Proc.devRef .tc main_arg5) = (m ((c.tc : Thread nD τ).loc main_arg5)) := pre_main_arg5 (W0 m ρ c)

/-- At the first region's exit: its output holds the first product, every other buffer what it held. -/
theorem at4_h : W4 m ρ c (Proc.devRef .tc main_v31) = prod1 (m ((c.tc : Thread nD τ).loc main_arg0)) (m ((c.tc : Thread nD τ).loc main_arg2)) := by
  refine (W4_arr m ρ c 2).trans ((Dense1.final (V3 m ρ) c).trans ?_)
  show prod1 (W3 m ρ c (Proc.devRef .tc main_arg0)) (W3 m ρ c (Proc.devRef .tc main_arg2)) = _
  rw [at3_arg0, at3_arg2]
theorem at4_srcs : W4 m ρ c (Proc.devRef .tc main_v5) = srcs (m ((c.tc : Thread nD τ).loc main_arg1)) := (W4_of_ne m ρ c main_v5 (by decide)).trans (at3_srcs m ρ c)
theorem at4_dsts : W4 m ρ c (Proc.devRef .tc main_v6) = dsts (m ((c.tc : Thread nD τ).loc main_arg1)) := (W4_of_ne m ρ c main_v6 (by decide)).trans (at3_dsts m ρ c)
theorem at4_norm : W4 m ρ c (Proc.devRef .tc main_v30) = normCol (m ((c.tc : Thread nD τ).loc main_arg1)) := (W4_of_ne m ρ c main_v30 (by decide)).trans (at3_norm m ρ c)
theorem at4_arg3 : W4 m ρ c (Proc.devRef .tc main_arg3) = (m ((c.tc : Thread nD τ).loc main_arg3)) := (W4_of_ne m ρ c main_arg3 (by decide)).trans (at3_arg3 m ρ c)
theorem at4_arg4 : W4 m ρ c (Proc.devRef .tc main_arg4) = (m ((c.tc : Thread nD τ).loc main_arg4)) := (W4_of_ne m ρ c main_arg4 (by decide)).trans (at3_arg4 m ρ c)
theorem at4_arg5 : W4 m ρ c (Proc.devRef .tc main_arg5) = (m ((c.tc : Thread nD τ).loc main_arg5)) := (W4_of_ne m ρ c main_arg5 (by decide)).trans (at3_arg5 m ρ c)

/-- The rectified first layer. -/
abbrev hidden : FArr Ideal S100000x32 :=
  relu (layer1 (prod1 (m ((c.tc : Thread nD τ).loc main_arg0)) (m ((c.tc : Thread nD τ).loc main_arg2))) (m ((c.tc : Thread nD τ).loc main_arg1)) (m ((c.tc : Thread nD τ).loc main_arg3)))

/-- At the second region's entry. -/
theorem at6_h : W6 m ρ c (Proc.devRef .tc main_v47) = hidden m c := by
  refine (mid_h (W4 m ρ c)).trans ?_
  rw [at4_h, at4_srcs, at4_dsts, at4_norm, at4_arg3]
  rfl
theorem at6_srcs : W6 m ρ c (Proc.devRef .tc main_v5) = srcs (m ((c.tc : Thread nD τ).loc main_arg1)) := (mid_main_v5 (W4 m ρ c)).trans (at4_srcs m ρ c)
theorem at6_dsts : W6 m ρ c (Proc.devRef .tc main_v6) = dsts (m ((c.tc : Thread nD τ).loc main_arg1)) := (mid_main_v6 (W4 m ρ c)).trans (at4_dsts m ρ c)
theorem at6_norm : W6 m ρ c (Proc.devRef .tc main_v30) = normCol (m ((c.tc : Thread nD τ).loc main_arg1)) := (mid_main_v30 (W4 m ρ c)).trans (at4_norm m ρ c)
theorem at6_arg4 : W6 m ρ c (Proc.devRef .tc main_arg4) = (m ((c.tc : Thread nD τ).loc main_arg4)) := (mid_main_arg4 (W4 m ρ c)).trans (at4_arg4 m ρ c)
theorem at6_arg5 : W6 m ρ c (Proc.devRef .tc main_arg5) = (m ((c.tc : Thread nD τ).loc main_arg5)) := (mid_main_arg5 (W4 m ρ c)).trans (at4_arg5 m ρ c)

/-- At the second region's exit: its output holds the second product, every other buffer what it held. -/
theorem at7_h : W7 m ρ c (Proc.devRef .tc main_v48) = prod2 (hidden m c) (m ((c.tc : Thread nD τ).loc main_arg4)) := by
  refine (W7_arr m ρ c 2).trans ((Dense2.final (V6 m ρ) c).trans ?_)
  show prod2 (W6 m ρ c (Proc.devRef .tc main_v47)) (W6 m ρ c (Proc.devRef .tc main_arg4)) = _
  rw [at6_h, at6_arg4]
theorem at7_srcs : W7 m ρ c (Proc.devRef .tc main_v5) = srcs (m ((c.tc : Thread nD τ).loc main_arg1)) := (W7_of_ne m ρ c main_v5 (by decide)).trans (at6_srcs m ρ c)
theorem at7_dsts : W7 m ρ c (Proc.devRef .tc main_v6) = dsts (m ((c.tc : Thread nD τ).loc main_arg1)) := (W7_of_ne m ρ c main_v6 (by decide)).trans (at6_dsts m ρ c)
theorem at7_norm : W7 m ρ c (Proc.devRef .tc main_v30) = normCol (m ((c.tc : Thread nD τ).loc main_arg1)) := (W7_of_ne m ρ c main_v30 (by decide)).trans (at6_norm m ρ c)
theorem at7_arg5 : W7 m ρ c (Proc.devRef .tc main_arg5) = (m ((c.tc : Thread nD τ).loc main_arg5)) := (W7_of_ne m ρ c main_arg5 (by decide)).trans (at6_arg5 m ρ c)

/-- THE RESULT: the second layer over the second product of the rectified first layer over the first product. -/
theorem result : W8 m ρ c (Proc.devRef .tc main_v63)
    = layer2 (prod2 (hidden m c) (m ((c.tc : Thread nD τ).loc main_arg4))) (m ((c.tc : Thread nD τ).loc main_arg1)) (m ((c.tc : Thread nD τ).loc main_arg5)) := by
  refine (post_out (W7 m ρ c)).trans ?_
  rw [at7_h, at7_srcs, at7_dsts, at7_norm, at7_arg5]
  rfl

end Run

end Cert.KernelIdeal.KernelValue

end
-- ==== Proof.RefValue.lean ====
/-
  The reference's result, read as the network: its run's composed term is
  `layer2 (relu (layer1 (x · W1)) · W2)` with the two products its own `dot_general`s. The reference recomputes the
  entry lists, the degrees and the weights for the second layer from the same two rows of the edge list with the same
  literals, so both layers carry the same `srcs`, `dsts` and `norm`: the composed term IS the named functions unfolded
  (the two programs' shape records differ only in their namespaces). Stated at any float family.
-/
import proofs.«150166_j1975684956587_1_alg».proof.Proof.RefRun
import proofs.«150166_j1975684956587_1_alg».proof.Proof.Gen.KernelIdeal
import proofs.«150166_j1975684956587_1_alg».proof.Proof.Conv

noncomputable section

namespace Cert.ReferenceIdeal.RefValue

open Idealize.ShloMosaic Idealize.ShloMosaic.TcCoe Idealize.SL.Sem
open Cert.ReferenceIdeal Cert.ReferenceIdeal.Gen Cert.KernelIdeal.Conv

variable {F : FTy → Type} [FloatOps F]

set_option maxRecDepth 16384 in
/-- The reference's result is the second layer over the reference's second product of the rectified first layer over
    its first product. -/
theorem result (m : (ℓ : Loc nD τ sig) → Buf (Elt F) ℓ) (c : Dev nD) :
    Cert.ReferenceIdeal.ValueP.res_main_v90 (F := F) m c
      = layer2 (Host.dotGeneral dot_S100000x32_S32x40_S100000x40_1_0_0_1_n_n none
          (relu (layer1 (Host.dotGeneral dot_S100000x512_S512x32_S100000x32_1_0_0_1_n_n none
              (m ((c.tc : Thread nD τ).loc main_arg0)) (m ((c.tc : Thread nD τ).loc main_arg2)))
            (m ((c.tc : Thread nD τ).loc main_arg1)) (m ((c.tc : Thread nD τ).loc main_arg3))))
          (m ((c.tc : Thread nD τ).loc main_arg4)))
        (m ((c.tc : Thread nD τ).loc main_arg1)) (m ((c.tc : Thread nD τ).loc main_arg5)) := by
  unfold Cert.ReferenceIdeal.ValueP.res_main_v90 layer2 layer1 agg2 agg1 relu normCol norm dinv deg rows wrap srcs dsts
  rfl

end Cert.ReferenceIdeal.RefValue

end
-- ==== Proof.RefDense1.lean ====
/-
  The reference's first dense product is the sum `Dense.prod1`: its `dot_general` contracts axis 1 of the left array with
  axis 0 of the right, and at `Ideal` a `dot_general` is the sum over the contracted axis of the products.
-/
import proofs.«150166_j1975684956587_1_alg».proof.Proof.Gen.ReferenceIdeal
import proofs.«150166_j1975684956587_1_alg».proof.Proof.Dense
import Idealize.ShloMosaic.Lib.ValueIdx
import Idealize.ShloMosaic.PureOps.Ideal.Laws

noncomputable section

namespace Cert.ReferenceIdeal.RefDense1

open Idealize.ShloMosaic Idealize.ShloMosaic.TcCoe Cert.ReferenceIdeal Cert.ReferenceIdeal.Gen

/-- The left operand's index for result entry `i` and contraction position `q`: row `i 0` … -/
theorem lhs_0 (i : S100000x32.Idx) (q : dot_S100000x512_S512x32_S100000x32_1_0_0_1_n_n.contr.Idx) :
    (dot_S100000x512_S512x32_S100000x32_1_0_0_1_n_n.lhsIdx i q 0).val = (i 0).val := by
  unfold DotDims.lhsIdx
  rw [dif_neg (show ¬(0 : Fin S100000x512.rank) ∈ dot_S100000x512_S512x32_S100000x32_1_0_0_1_n_n.lhsBatch by decide), dif_pos (show (0 : Fin S100000x512.rank) ∈ dot_S100000x512_S512x32_S100000x32_1_0_0_1_n_n.lhsNonContracting by decide)]
  rfl
/-- … column `q`. -/
theorem lhs_1 (i : S100000x32.Idx) (q : dot_S100000x512_S512x32_S100000x32_1_0_0_1_n_n.contr.Idx) :
    (dot_S100000x512_S512x32_S100000x32_1_0_0_1_n_n.lhsIdx i q 1).val = (q ⟨0, by decide⟩).val :=
  dot_S100000x512_S512x32_S100000x32_1_0_0_1_n_n.lhsIdx_val_of_single rfl i q
/-- The right operand's index: row `q` … -/
theorem rhs_0 (i : S100000x32.Idx) (q : dot_S100000x512_S512x32_S100000x32_1_0_0_1_n_n.contr.Idx) :
    (dot_S100000x512_S512x32_S100000x32_1_0_0_1_n_n.rhsIdx i q 0).val = (q ⟨0, by decide⟩).val :=
  dot_S100000x512_S512x32_S100000x32_1_0_0_1_n_n.rhsIdx_val_of_single rfl i q
/-- … column `i 1`. -/
theorem rhs_1 (i : S100000x32.Idx) (q : dot_S100000x512_S512x32_S100000x32_1_0_0_1_n_n.contr.Idx) :
    (dot_S100000x512_S512x32_S100000x32_1_0_0_1_n_n.rhsIdx i q 1).val = (i 1).val := by
  unfold DotDims.rhsIdx
  rw [dif_neg (show ¬(1 : Fin S512x32.rank) ∈ dot_S100000x512_S512x32_S100000x32_1_0_0_1_n_n.rhsBatch by decide), dif_pos (show (1 : Fin S512x32.rank) ∈ dot_S100000x512_S512x32_S100000x32_1_0_0_1_n_n.rhsNonContracting by decide)]
  rfl

/-- The host's contraction is `Dense.prod1`: the sum over the contracted axis, re-indexed by the position `k < 512`. -/
theorem dot (x : (⟨S100000x512, .f32⟩ : BufTy).Contents (Elt Ideal)) (w : (⟨S512x32, .f32⟩ : BufTy).Contents (Elt Ideal)) :
    Host.dotGeneral (F := Ideal) (φ₁ := .f32) (φ₂ := .f32) dot_S100000x512_S512x32_S100000x32_1_0_0_1_n_n none x w = Cert.KernelIdeal.Dense.prod1 x w := by
  funext i
  simp only [Host.dotGeneral, Cert.KernelIdeal.Dense.prod1]
  rw [Ideal.dotGeneral_apply, ← Equiv.sum_comp (ValueIdx.contrEquiv1 dot_S100000x512_S512x32_S100000x32_1_0_0_1_n_n 512 rfl rfl).symm]
  refine Finset.sum_congr rfl fun k _ => ?_
  have hk := ValueIdx.contrEquiv1_symm_val dot_S100000x512_S512x32_S100000x32_1_0_0_1_n_n 512 rfl rfl k
  have el : dot_S100000x512_S512x32_S100000x32_1_0_0_1_n_n.lhsIdx i ((ValueIdx.contrEquiv1 dot_S100000x512_S512x32_S100000x32_1_0_0_1_n_n 512 rfl rfl).symm k) = Cert.KernelIdeal.Dense.lrow1 i k := funext fun a => Fin.ext (by
    match a with
    | ⟨0, _⟩ => exact lhs_0 _ _
    | ⟨1, _⟩ => exact (lhs_1 _ _).trans hk)
  have er : dot_S100000x512_S512x32_S100000x32_1_0_0_1_n_n.rhsIdx i ((ValueIdx.contrEquiv1 dot_S100000x512_S512x32_S100000x32_1_0_0_1_n_n 512 rfl rfl).symm k) = Cert.KernelIdeal.Dense.rcol1 i k := funext fun a => Fin.ext (by
    match a with
    | ⟨0, _⟩ => exact (rhs_0 _ _).trans hk
    | ⟨1, _⟩ => exact rhs_1 _ _)
  rw [el, er]

end Cert.ReferenceIdeal.RefDense1

end
-- ==== Proof.RefDense2.lean ====
/-
  The reference's second dense product is the sum Dense.prod2: its dot_general contracts axis 1 of the left array
  (100000 × 32) with axis 0 of the right (32 × 40), and at Ideal a dot_general is the sum over the contracted axis.
-/
import proofs.«150166_j1975684956587_1_alg».proof.Proof.Gen.ReferenceIdeal
import proofs.«150166_j1975684956587_1_alg».proof.Proof.Dense
import Idealize.ShloMosaic.Lib.ValueIdx
import Idealize.ShloMosaic.PureOps.Ideal.Laws

noncomputable section

namespace Cert.ReferenceIdeal.RefDense2

open Idealize.ShloMosaic Idealize.ShloMosaic.TcCoe Cert.ReferenceIdeal Cert.ReferenceIdeal.Gen

/-- The left operand's index for result entry `i` and contraction position `q`: row `i 0` … -/
theorem lhs_0 (i : S100000x40.Idx) (q : dot_S100000x32_S32x40_S100000x40_1_0_0_1_n_n.contr.Idx) :
    (dot_S100000x32_S32x40_S100000x40_1_0_0_1_n_n.lhsIdx i q 0).val = (i 0).val := by
  unfold DotDims.lhsIdx
  rw [dif_neg (show ¬(0 : Fin S100000x32.rank) ∈ dot_S100000x32_S32x40_S100000x40_1_0_0_1_n_n.lhsBatch by decide), dif_pos (show (0 : Fin S100000x32.rank) ∈ dot_S100000x32_S32x40_S100000x40_1_0_0_1_n_n.lhsNonContracting by decide)]
  rfl
/-- … column `q`. -/
theorem lhs_1 (i : S100000x40.Idx) (q : dot_S100000x32_S32x40_S100000x40_1_0_0_1_n_n.contr.Idx) :
    (dot_S100000x32_S32x40_S100000x40_1_0_0_1_n_n.lhsIdx i q 1).val = (q ⟨0, by decide⟩).val :=
  dot_S100000x32_S32x40_S100000x40_1_0_0_1_n_n.lhsIdx_val_of_single rfl i q
/-- The right operand's index: row `q` … -/
theorem rhs_0 (i : S100000x40.Idx) (q : dot_S100000x32_S32x40_S100000x40_1_0_0_1_n_n.contr.Idx) :
    (dot_S100000x32_S32x40_S100000x40_1_0_0_1_n_n.rhsIdx i q 0).val = (q ⟨0, by decide⟩).val :=
  dot_S100000x32_S32x40_S100000x40_1_0_0_1_n_n.rhsIdx_val_of_single rfl i q
/-- … column `i 1`. -/
theorem rhs_1 (i : S100000x40.Idx) (q : dot_S100000x32_S32x40_S100000x40_1_0_0_1_n_n.contr.Idx) :
    (dot_S100000x32_S32x40_S100000x40_1_0_0_1_n_n.rhsIdx i q 1).val = (i 1).val := by
  unfold DotDims.rhsIdx
  rw [dif_neg (show ¬(1 : Fin S32x40.rank) ∈ dot_S100000x32_S32x40_S100000x40_1_0_0_1_n_n.rhsBatch by decide), dif_pos (show (1 : Fin S32x40.rank) ∈ dot_S100000x32_S32x40_S100000x40_1_0_0_1_n_n.rhsNonContracting by decide)]
  rfl

/-- The host's contraction is `Dense.prod2`: the sum over the contracted axis, re-indexed by the position `k < 32`. -/
theorem dot (x : (⟨S100000x32, .f32⟩ : BufTy).Contents (Elt Ideal)) (w : (⟨S32x40, .f32⟩ : BufTy).Contents (Elt Ideal)) :
    Host.dotGeneral (F := Ideal) (φ₁ := .f32) (φ₂ := .f32) dot_S100000x32_S32x40_S100000x40_1_0_0_1_n_n none x w = Cert.KernelIdeal.Dense.prod2 x w := by
  funext i
  simp only [Host.dotGeneral, Cert.KernelIdeal.Dense.prod2]
  rw [Ideal.dotGeneral_apply, ← Equiv.sum_comp (ValueIdx.contrEquiv1 dot_S100000x32_S32x40_S100000x40_1_0_0_1_n_n 32 rfl rfl).symm]
  refine Finset.sum_congr rfl fun k _ => ?_
  have hk := ValueIdx.contrEquiv1_symm_val dot_S100000x32_S32x40_S100000x40_1_0_0_1_n_n 32 rfl rfl k
  have el : dot_S100000x32_S32x40_S100000x40_1_0_0_1_n_n.lhsIdx i ((ValueIdx.contrEquiv1 dot_S100000x32_S32x40_S100000x40_1_0_0_1_n_n 32 rfl rfl).symm k) = Cert.KernelIdeal.Dense.lrow2 i k := funext fun a => Fin.ext (by
    match a with
    | ⟨0, _⟩ => exact lhs_0 _ _
    | ⟨1, _⟩ => exact (lhs_1 _ _).trans hk)
  have er : dot_S100000x32_S32x40_S100000x40_1_0_0_1_n_n.rhsIdx i ((ValueIdx.contrEquiv1 dot_S100000x32_S32x40_S100000x40_1_0_0_1_n_n 32 rfl rfl).symm k) = Cert.KernelIdeal.Dense.rcol2 i k := funext fun a => Fin.ext (by
    match a with
    | ⟨0, _⟩ => exact (rhs_0 _ _).trans hk
    | ⟨1, _⟩ => exact rhs_1 _ _)
  rw [el, er]

end Cert.ReferenceIdeal.RefDense2

end
-- ==== Proof.lean ====
/-
  A two-layer graph convolution over 100,000 nodes and 1,600,000 edges (plus a self loop per node):
      out = Â · relu (Â · (x · W1) + b1) · W2 + b2,        Â = D^(-1/2) (A + I) D^(-1/2),
  where each `Â · H` is a gather of the edge sources' rows of `H`, a scaling by the edge weights `dinv s · dinv d`
  and a scatter-add into the destinations' rows. The kernel program computes the two dense products `x · W1` and
  `h · W2` in 25 row blocks of 4000 rows on the matrix unit (bf16 operands, f32 accumulation) and everything else on the
  host; the reference computes everything on the host, the products by one contraction each, and recomputes the degrees
  and weights for the second layer.

  Over the extended reals the two results are equal entry by entry, for every input (no finiteness is used):
    * a cast to bf16 is the identity and a matrix-unit product into a zero accumulator is the sum over the contracted
      axis, which is also what the host's contraction is: both products are `Dense.prod1`, `Dense.prod2`
      (Dense1 / Dense2 for the kernel's row blocks, which tile the rows; RefDense1 / RefDense2 for the reference);
    * every other operation is the same operation on both sides, with the same literals, applied to equal values:
      both results are `Conv.layer2 (prod2 (relu (layer1 (prod1 x W1))) W2)` (KernelValue for the kernel program's
      fold through its two regions, RefValue for the reference's composed term, whose second computation of the
      weights is the same function of the same edge list).
  The three programs run and leave their arguments unchanged (the frames); the idealization rewrote nothing, so
  `preserves` has no conjunct.
-/
import proofs.«150166_j1975684956587_1_alg».proof.Defs
import proofs.«150166_j1975684956587_1_alg».proof.Proof.Gen.Kernel
import proofs.«150166_j1975684956587_1_alg».proof.Proof.Gen.Kernel.Skeleton
import proofs.«150166_j1975684956587_1_alg».proof.Proof.Gen.Kernel.Launch
import proofs.«150166_j1975684956587_1_alg».proof.Proof.Gen.Kernel.Points
import proofs.«150166_j1975684956587_1_alg».proof.Proof.Gen.Kernel.Frame
import proofs.«150166_j1975684956587_1_alg».proof.Proof.Gen.KernelIdeal
import proofs.«150166_j1975684956587_1_alg».proof.Proof.Gen.KernelIdeal.Skeleton
import proofs.«150166_j1975684956587_1_alg».proof.Proof.Gen.KernelIdeal.Launch
import proofs.«150166_j1975684956587_1_alg».proof.Proof.Gen.KernelIdeal.Points
import proofs.«150166_j1975684956587_1_alg».proof.Proof.Gen.KernelIdeal.Frame
import proofs.«150166_j1975684956587_1_alg».proof.Proof.Gen.ReferenceIdeal
import proofs.«150166_j1975684956587_1_alg».proof.Proof.RefRun
import proofs.«150166_j1975684956587_1_alg».proof.Proof.Gen.Pre_finite_inputs
import proofs.«150166_j1975684956587_1_alg».proof.Proof.KernelRun
import proofs.«150166_j1975684956587_1_alg».proof.Proof.KernelValue
import proofs.«150166_j1975684956587_1_alg».proof.Proof.RefValue
import proofs.«150166_j1975684956587_1_alg».proof.Proof.RefDense1
import proofs.«150166_j1975684956587_1_alg».proof.Proof.RefDense2
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the same network output: the kernel program's result buffer read through its two regions,
    the reference's composed term, each the second layer over the second product of the rectified first layer over
    the first product, of arguments that agree. -/
theorem algebraic : Cert.algebraic_KernelIdeal_ReferenceIdeal := by
  intro m ρ m' ρ' _ hagree
  refine ⟨fun c => Cert.KernelIdeal.Gen.W8 m ρ c (Proc.devRef .tc Cert.KernelIdeal.main_v63),
    Cert.KernelIdeal.GenP.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  rw [Cert.ReferenceIdeal.RefValue.result, h0, h1, h2, h3, h4, h5,
    Cert.ReferenceIdeal.RefDense1.dot, Cert.ReferenceIdeal.RefDense2.dot]
  exact (Cert.KernelIdeal.KernelValue.result m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
